-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  main_v8
-- ==== Kernel.lean ====
abbrev S8192x512 : Shape := ⟨2, ![8192, 512]⟩
abbrev S8192x8192 : Shape := ⟨2, ![8192, 8192]⟩
abbrev S1024x512 : Shape := ⟨2, ![1024, 512]⟩
abbrev S2048x512 : Shape := ⟨2, ![2048, 512]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S2048x1 : Shape := ⟨2, ![2048, 1]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x8192, .f32⟩
  | .local _ .vmem, ⟨0, _⟩ => ⟨S1024x512, .f32⟩
  | .local _ .vmem, ⟨1, _⟩ => ⟨S1024x512, .f32⟩
  | .local _ .vmem, ⟨2, _⟩ => ⟨S2048x512, .f32⟩
  | .local _ .vmem, ⟨3, _⟩ => ⟨S2048x512, .f32⟩
  | .local _ .vmem, ⟨4, _⟩ => ⟨S1024x2048, .f32⟩
  | .local _ .vmem, ⟨5, _⟩ => ⟨S1024x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x512_S1024x512_0_0 : ∀ a, (![0, 0] : Fin 2 → Nat) a + S1024x512.size a ≤ S1024x512.size a
  h_S1024x512 : 0 < S1024x512.numel
  inb_S2048x512_S2048x512_0_0 : ∀ a, (![0, 0] : Fin 2 → Nat) a + S2048x512.size a ≤ S2048x512.size a
  h_S2048x512 : 0 < S2048x512.numel
  reduces_S1024x512_S1024 : S1024x512.Reduces [1] S1024
  shapeCasts_S1024_S1024x1 : S1024.ShapeCasts S1024x1
  reduces_S2048x512_S2048 : S2048x512.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .f32 = 32 ∨ (Rect.block (s := S8192x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S8192x8192.size a
  hwx0_2 : ∀ i : grid0.Coords, EltTy.bits .f32 = 32 ∨ (Rect.block (s := S8192x8192) S1024x2048.size (cc0_transform_2 i) (hinb0_2 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x512, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x512_S8192x512_S8192x8192_1_1_0_0_n_n_wf : DotDims.WF S8192x512 S8192x512 S8192x8192 [1] [1] [0] [0] [] []

variable [Facts₀]

def dot_S8192x512_S8192x512_S8192x8192_1_1_0_0_n_n : DotDims S8192x512 S8192x512 S8192x8192 where
  lhsContracting := [1]
  rhsContracting := [1]
  lhsNonContracting := [0]
  rhsNonContracting := [0]
  lhsBatch := []
  rhsBatch := []
  wf := dot_S8192x512_S8192x512_S8192x8192_1_1_0_0_n_n_wf

class Facts : Prop extends Facts₀ where

variable [Facts]
-- ==== Proof.PairwiseSq.lean ====
/-
  Pairwise squared Euclidean distance between the rows of two real matrices, written through the expansion
  ‖s_i − t_j‖² = ‖s_i‖² + ‖t_j‖² − 2 ⟨s_i, t_j⟩ — the one function both programs compute at the extended reals.
  Entry (i, j) of the result reads row i of the first matrix and row j of the second, and nothing else:
  the two squared row norms are sums of 512 squares, the cross term a sum of 512 products, and the three are
  combined as (norm + norm) − 2 · cross, in that order. Neither side regroups or distributes anything, so no
  finiteness of the entries is needed: the two programs agree on every extended-real input.
-/
import Idealize.ShloMosaic.Lib.ValueIdx

noncomputable section

open scoped BigOperators

namespace Cert.PairwiseSq

open Idealize.ShloMosaic Idealize.ShloMosaic.ValueIdx

/-- The factor in front of the cross term: the f32 word of 2.0, which both programs carry unchanged. -/
abbrev two : EReal := Ideal.ofBits .f32 0x40000000#32

/-- Entry (i, j) of the distance matrix from the two row-major 8192 × 512 matrices:
    (Σₖ s(i,k)² + Σₖ t(j,k)²) − 2 · Σₖ s(i,k) · t(j,k). -/
def sqdist (s t : (⟨2, ![8192, 512]⟩ : Shape).Idx → EReal) : (⟨2, ![8192, 8192]⟩ : Shape).Idx → EReal :=
  fun i =>
    ((∑ k : Fin 512, s (ix2 (i 0) k) * s (ix2 (i 0) k)) + (∑ k : Fin 512, t (ix2 (i 1) k) * t (ix2 (i 1) k)))
      - two * ∑ k : Fin 512, s (ix2 (i 0) k) * t (ix2 (i 1) k)

/-- The same entry with the two coordinates named. -/
theorem sqdist_ix2 (s t : (⟨2, ![8192, 512]⟩ : Shape).Idx → EReal) (a b : Fin 8192) :
    sqdist s t (ix2 a b)
      = ((∑ k : Fin 512, s (ix2 a k) * s (ix2 a k)) + (∑ k : Fin 512, t (ix2 b k) * t (ix2 b k)))
        - two * ∑ k : Fin 512, s (ix2 a k) * t (ix2 b k) := rfl

end Cert.PairwiseSq

end
-- ==== Proof.RefIsSqDist.lean ====
/-
  The reference, read entry by entry, is the pairwise squared distance of PairwiseSq.lean.
  Its program squares each matrix, sums every row of squares from the initial value 0, lays the first vector of row
  norms down the rows and the second across the columns of an 8192 × 8192 array, adds them, and subtracts twice the
  matrix of row-by-row inner products. Read at entry (i, j) every layout step only moves an index: the row norm that
  lands there is row i's of the first matrix and row j's of the second, and the inner product contracts row i with row j.
  The initial value 0 is the additive unit, so 0 + Σ is Σ, and what remains is the specification letter for letter.
-/
import proofs.«125089_j20959440404484_1_alg».proof.Proof.Gen.ReferenceIdeal.Read
import proofs.«125089_j20959440404484_1_alg».proof.Proof.PairwiseSq

noncomputable section

open scoped BigOperators

namespace Cert.ReferenceIdeal.AsSqDist

open Cert.ReferenceIdeal Cert.ReferenceIdeal.Gen Cert.ReferenceIdeal.Read
open Idealize.ShloMosaic Idealize.ShloMosaic.ValueIdx Cert.PairwiseSq

/-- Down the rows: the first row norm that reaches entry `i` sums row `i 0`. -/
theorem row_of_first (i : S8192x8192.Idx) (k : Fin 512) :
    idx_main_v1 (idx_main_v5 (idx_main_v7 i)) k = ix2 (i 0) k :=
  funext fun a => by match a with | ⟨0, _⟩ => rfl | ⟨1, _⟩ => rfl

/-- Across the columns: the second row norm that reaches entry `i` sums row `i 1`. -/
theorem row_of_second (i : S8192x8192.Idx) (k : Fin 512) :
    idx_main_v3 (idx_main_v6 (idx_main_v8 i)) k = ix2 (i 1) k :=
  funext fun a => by match a with | ⟨0, _⟩ => rfl | ⟨1, _⟩ => rfl

/-- The inner product at entry `i` takes its left factors from row `i 0` … -/
theorem left_factor (i : S8192x8192.Idx) (k : Fin 512) : lidx_main_v4 i k = ix2 (i 0) k :=
  funext fun a => by match a with | ⟨0, _⟩ => rfl | ⟨1, _⟩ => rfl

/-- … and its right factors from row `i 1`. -/
theorem right_factor (i : S8192x8192.Idx) (k : Fin 512) : ridx_main_v4 i k = ix2 (i 1) k :=
  funext fun a => by match a with | ⟨0, _⟩ => rfl | ⟨1, _⟩ => rfl

/-- The reference's last stage is `sqdist` of its two arguments. -/
theorem last_stage_eq (x0 x1 : (⟨S8192x512, .f32⟩ : BufTy).Contents (Elt Ideal)) :
    val_main_v12 (F := Ideal) x0 x1 = sqdist x0 x1 := by
  funext i
  rw [val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply]
  simp only [val_main_v0_apply, val_main_v2_apply, val_main_cst_apply, val_main_cst_0_apply,
    row_of_first, row_of_second, left_factor, right_factor,
    Ideal.subf_def, Ideal.addf_def, Ideal.mulf_def, Ideal.ofBits_def, Ideal.ofBits_zero_f32, zero_add]
  rfl

end Cert.ReferenceIdeal.AsSqDist

end
-- ==== Proof.TileSqDist.lean ====
/-
  One grid step of the kernel, read entry by entry.
  The body holds a tile of 1024 rows of the first matrix and a tile of 2048 rows of the second. It squares each tile and
  sums along the rows (a column of 1024 norms, a column of 2048 norms), turns the second column into a row, spreads the
  column over the 2048 columns and the row over the 1024 rows of the output tile, adds them, and subtracts twice the
  product of the first tile with the transposed second one (the operands narrowed to bf16, which is no change of value
  over the extended reals; the product accumulates into zero).
  So entry (p, q) of the output tile is (Σₖ x(p,k)² + Σₖ y(q,k)²) − 2 · Σₖ x(p,k) · y(q,k): the specification's
  formula on the two tiles. Each layout step only moves an index; a sum along a row is a sum over the 512 columns; the
  tile product at (p, q) contracts row p of the first tile with row q of the second.
-/
import proofs.«125089_j20959440404484_1_alg».proof.Proof.Gen.KernelIdeal.Skeleton
import proofs.«125089_j20959440404484_1_alg».proof.Proof.PairwiseSq
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.TileSqDist

open Cert.KernelIdeal Cert.KernelIdeal.Gen
open Idealize.ShloMosaic Idealize.ShloMosaic.ValueIdx Cert.PairwiseSq

/-! ## The column of norms of the first tile, spread over the output tile's columns -/

/-- Row sums of a 1024 × 512 tile, reshaped to a column and broadcast along the columns: entry (p, q) is row p's sum. -/
theorem col_of_row_sums (v : FVec Ideal S1024x512 .f32) (hr : S1024x512.Reduces [1] S1024) (hφ : FKind.Formats .f32)
    (hacc : (0x00000000#32 : BitVec (FTy.bits .f32)) = FKind.add.neutral .f32 hφ)
    (hc : S1024.ShapeCasts S1024x1) (hb : S1024x1.Broadcasts S1024x2048) (p : Fin 1024) (q : Fin 2048) :
    broadcastTo S1024x2048 (shapeCast S1024x1 (multiReduction .add [1] S1024 v 0x00000000#32 hr hφ hacc) hc) hb (ix2 p q)
      = ∑ k : Fin 512, v (ix2 p k) := by
  refine (broadcastTo_apply _ hb (ix2 p q) (ix2 p (0 : Fin 1)) fun a => ?_).trans ?_
  · match a with
    | ⟨0, _⟩ => show p.val = if (1024 : Nat) = 1 then 0 else p.val; rw [if_neg (by decide)]
    | ⟨1, _⟩ => show (0 : Nat) = if (1 : Nat) = 1 then 0 else q.val; rw [if_pos rfl]
  refine (shapeCast_apply _ hc (ix2 p (0 : Fin 1)) (ix1 p) ?_).trans ?_
  · rw [Shape.rowMajor_val_one, Shape.rowMajor_val_two]
    show p.val = p.val * 1 + 0
    omega
  refine (Ideal.multiReduction_add_single v 0x00000000#32 hr hφ hacc (ix1 p)).trans ?_
  exact Finset.sum_congr rfl fun k _ => congrArg v (funext fun a => Fin.ext (by
    match a with | ⟨0, _⟩ => rfl | ⟨1, _⟩ => rfl))

/-! ## The row of norms of the second tile, spread over the output tile's rows -/

/-- Row sums of a 2048 × 512 tile, reshaped to a column, transposed to a row and broadcast along the rows:
    entry (p, q) is row q's sum. -/
theorem row_of_row_sums (w : FVec Ideal S2048x512 .f32) (hr : S2048x512.Reduces [1] S2048) (hφ : FKind.Formats .f32)
    (hacc : (0x00000000#32 : BitVec (FTy.bits .f32)) = FKind.add.neutral .f32 hφ)
    (hc : S2048.ShapeCasts S2048x1) (ht : S2048x1.Transposes [1, 0] S1x2048) (hb : S1x2048.Broadcasts S1024x2048)
    (p : Fin 1024) (q : Fin 2048) :
    broadcastTo S1024x2048 (transpose S1x2048 [1, 0]
        (shapeCast S2048x1 (multiReduction .add [1] S2048 w 0x00000000#32 hr hφ hacc) hc) ht) hb (ix2 p q)
      = ∑ k : Fin 512, w (ix2 q k) := by
  refine (broadcastTo_1b_ab_apply _ hb p q).trans ?_
  refine (transpose_ix2_apply _ ht (0 : Fin 1) q).trans ?_
  refine (shapeCast_apply _ hc (ix2 q (0 : Fin 1)) (ix1 q) ?_).trans ?_
  · rw [Shape.rowMajor_val_one, Shape.rowMajor_val_two]
    show q.val = q.val * 1 + 0
    omega
  refine (Ideal.multiReduction_add_single w 0x00000000#32 hr hφ hacc (ix1 q)).trans ?_
  exact Finset.sum_congr rfl fun k _ => congrArg w (funext fun a => Fin.ext (by
    match a with | ⟨0, _⟩ => rfl | ⟨1, _⟩ => rfl))

/-! ## The product of the first tile with the transposed second tile -/

theorem lhs_row (i : S1024x2048.Idx) (c : dot_S1024x512_S2048x512_S1024x2048_1_1_0_0_n_n.contr.Idx) :
    (dot_S1024x512_S2048x512_S1024x2048_1_1_0_0_n_n.lhsIdx i c 0).val = (i 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_col (i : S1024x2048.Idx) (c : dot_S1024x512_S2048x512_S1024x2048_1_1_0_0_n_n.contr.Idx) :
    (dot_S1024x512_S2048x512_S1024x2048_1_1_0_0_n_n.lhsIdx i c 1).val = (c ⟨0, by decide⟩).val :=
  dot_S1024x512_S2048x512_S1024x2048_1_1_0_0_n_n.lhsIdx_val_of_single rfl i c
theorem rhs_row (i : S1024x2048.Idx) (c : dot_S1024x512_S2048x512_S1024x2048_1_1_0_0_n_n.contr.Idx) :
    (dot_S1024x512_S2048x512_S1024x2048_1_1_0_0_n_n.rhsIdx i c 0).val = (i 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_col (i : S1024x2048.Idx) (c : dot_S1024x512_S2048x512_S1024x2048_1_1_0_0_n_n.contr.Idx) :
    (dot_S1024x512_S2048x512_S1024x2048_1_1_0_0_n_n.rhsIdx i c 1).val = (c ⟨0, by decide⟩).val :=
  dot_S1024x512_S2048x512_S1024x2048_1_1_0_0_n_n.rhsIdx_val_of_single rfl i c

/-- The tile product into zero, at (p, q): row p of the first tile against row q of the second. -/
theorem tile_product (x : FVec Ideal S1024x512 .f32) (y : FVec Ideal S2048x512 .f32) (h : FTy.bits .bf16 < FTy.bits .f32)
    (p : Fin 1024) (q : Fin 2048) :
    matmul dot_S1024x512_S2048x512_S1024x2048_1_1_0_0_n_n none (truncf .bf16 x h) (truncf .bf16 y h) (constant S1024x2048 .f32 0x00000000#32) (ix2 p q)
      = ∑ k : Fin 512, x (ix2 p k) * y (ix2 q k) := by
  simp only [matmul]
  rw [Ideal.matmul_constant_zero_apply, ← Equiv.sum_comp (contrEquiv1 dot_S1024x512_S2048x512_S1024x2048_1_1_0_0_n_n 512 rfl rfl).symm]
  refine Finset.sum_congr rfl fun k _ => ?_
  have hk := contrEquiv1_symm_val dot_S1024x512_S2048x512_S1024x2048_1_1_0_0_n_n 512 rfl rfl k
  have el : dot_S1024x512_S2048x512_S1024x2048_1_1_0_0_n_n.lhsIdx (ix2 p q) ((contrEquiv1 dot_S1024x512_S2048x512_S1024x2048_1_1_0_0_n_n 512 rfl rfl).symm k) = ix2 p k := funext fun a => Fin.ext (by
    match a with
    | ⟨0, _⟩ => exact lhs_row _ _
    | ⟨1, _⟩ => exact (lhs_col _ _).trans hk)
  have er : dot_S1024x512_S2048x512_S1024x2048_1_1_0_0_n_n.rhsIdx (ix2 p q) ((contrEquiv1 dot_S1024x512_S2048x512_S1024x2048_1_1_0_0_n_n 512 rfl rfl).symm k) = ix2 q k := funext fun a => Fin.ext (by
    match a with
    | ⟨0, _⟩ => exact rhs_row _ _
    | ⟨1, _⟩ => exact (rhs_col _ _).trans hk)
  rw [el, er]
  rfl

/-! ## The body's stored value at an entry -/

/-- Entry (p, q) of the value the body stores, from the two tiles it loaded. -/
theorem stored_apply (x : FVec Ideal S1024x512 .f32) (y : FVec Ideal S2048x512 .f32) (p : Fin 1024) (q : Fin 2048) :
    k0_pay1 (F := Ideal) x y (ix2 p q)
      = ((∑ k : Fin 512, x (ix2 p k) * x (ix2 p k)) + (∑ k : Fin 512, y (ix2 q k) * y (ix2 q k)))
        - two * ∑ k : Fin 512, x (ix2 p k) * y (ix2 q k) := by
  unfold k0_pay1
  refine congrArg₂ (· - ·) (congrArg₂ (· + ·) ?_ ?_) (congrArg (two * ·) ?_)
  · exact col_of_row_sums (mulf x x) _ _ _ _ _ p q
  · exact row_of_row_sums (mulf y y) _ _ _ _ _ _ p q
  · exact tile_product x y _ p q

end Cert.KernelIdeal.TileSqDist

end
-- ==== Proof.WholeSqDist.lean ====
/-
  From tiles to the whole distance matrix.
  The grid has 8 × 4 points; point (a, b) reads rows 1024·a … 1024·a + 1023 of the first matrix, rows
  2048·b … 2048·b + 2047 of the second, and writes the 1024 × 2048 tile of the result whose corner is (1024·a, 2048·b).
  Entry (p, q) of that tile is the distance formula on row p of the first tile and row q of the second
  (TileSqDist.lean), and those are rows 1024·a + p and 2048·b + q of the whole matrices — the rows the specification
  reads for entry (1024·a + p, 2048·b + q). So every point writes back its own tile of the one function `sqdist`.
  The 32 tiles fill the 8192 × 8192 result: entry (r, s) lies in the tile of point (r / 1024, s / 2048). Hence the result
  array ends holding `sqdist` of the two argument arrays, which the run leaves unchanged.
-/
import proofs.«125089_j20959440404484_1_alg».proof.Proof.Gen.KernelIdeal.Value
import proofs.«125089_j20959440404484_1_alg».proof.Proof.TileSqDist
import proofs.«125089_j20959440404484_1_alg».proof.Proof.PairwiseSq

set_option maxRecDepth 16384

noncomputable section

open scoped BigOperators

namespace Cert.KernelIdeal.WholeSqDist

open Cert.KernelIdeal Cert.KernelIdeal.Gen Idealize.ShloMosaic Idealize.ShloMosaic.TcCoe Idealize.SL.Sem
open Idealize.ShloMosaic.Pipeline (Dat)
open Idealize.ShloMosaic.ValueIdx Cert.PairwiseSq

variable (m : (ℓ : Loc nD τ sig) → Buf (Elt Ideal) ℓ) (ρ : Dev nD → PrngReg)

/-- Every access of the body starts at the corner of its buffer. -/
theorem corner : (![0, 0] : Fin 2 → Nat) = fun _ => 0 := funext fun a => by fin_cases a <;> rfl

/-- The three index maps over the 32 grid points: the first input's row block is the output's row block, the second
    input's row block is the output's column block, neither input is cut along its 512 columns, and the output's
    block indices stay below 8 and 4. -/
theorem tile_indices : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0
    ∧ win0_2.index t (0 : Fin 2) ≤ 7 ∧ win0_2.index t (1 : Fin 2) ≤ 3 :=
  (by decide +kernel : ∀ t : Fin grid0.N, _)

/-- Every one of the 8 × 4 output tiles is some grid point's. -/
theorem tile_onto : ∀ (a : Fin 8) (b : Fin 4), ∃ t : Fin cfg0.N, win0_2.index t = ![a.val, b.val] :=
  (by decide +kernel : ∀ (a : Fin 8) (b : Fin 4), ∃ t : Fin grid0.N, win0_2.index t = ![a.val, b.val])

/-- What point `t` writes back is tile `t` of `sqdist` of the two matrices as the region finds them. -/
theorem flushed_eq (c : Dev nD) (t : Fin cfg0.N) :
    (dats m 0 c).flushed 2 t
      = ((cfg0.win 2).blk t).view.read (Elt Ideal) (sqdist (V m c main_arg0) (V m c main_arg1)) := by
  rw [Value.flushed2]
  unfold out0_2
  rw [View.canon_unit_zero corner]
  simp only [View.ld_unit_zero (S := S1024x512) corner, View.ld_unit_zero (S := S2048x512) corner]
  obtain ⟨e0, e1, e2, e3, -, -⟩ := tile_indices t
  funext j
  obtain ⟨p, q, rfl⟩ : ∃ (p : Fin 1024) (q : Fin 2048), j = ix2 p q := ⟨j 0, j 1, eq_ix2 j⟩
  show k0_pay1 (F := Ideal) (iblk m c 0 t) (iblk m c 1 t) (ix2 p q)
      = sqdist (V m c main_arg0) (V m c main_arg1) (((cfg0.win 2).blk t).view.emb (ix2 p q))
  refine (TileSqDist.stored_apply (iblk m c 0 t) (iblk m c 1 t) p q).trans ?_
  have hx : ∀ k : Fin 512, iblk m c 0 t (ix2 p k)
      = V m c main_arg0 (ix2 ((((cfg0.win 2).blk t).view.emb (ix2 p q)) 0) k) := fun k => by
    show V m c main_arg0 (((cfg0.win 0).blk t).view.emb (ix2 p k)) = _
    refine congrArg (V m c main_arg0) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 512 + 1 * k.val = k.val; omega
  have hy : ∀ k : Fin 512, iblk m c 1 t (ix2 q k)
      = V m c main_arg1 (ix2 ((((cfg0.win 2).blk t).view.emb (ix2 p q)) 1) k) := fun k => by
    show V m c main_arg1 (((cfg0.win 1).blk t).view.emb (ix2 q k)) = _
    refine congrArg (V m c main_arg1) (funext fun a => Fin.ext ?_)
    match a with
    | ⟨0, _⟩ => show win0_1.index t (0 : Fin 2) * 2048 + 1 * q.val = win0_2.index t (1 : Fin 2) * 2048 + 1 * q.val; omega
    | ⟨1, _⟩ => show win0_1.index t (1 : Fin 2) * 512 + 1 * k.val = k.val; omega
  unfold sqdist
  exact congrArg₂ (· - ·)
    (congrArg₂ (· + ·) (Finset.sum_congr rfl fun k _ => by rw [hx k]) (Finset.sum_congr rfl fun k _ => by rw [hy k]))
    (congrArg (two * ·) (Finset.sum_congr rfl fun k _ => by rw [hx k, hy k]))

/-- An entry of the result is in point `t`'s tile iff each coordinate is in the tile's range on its axis. -/
theorem mem_tile (t : Fin cfg0.N) (i : S8192x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- The tiles fill the result: entry (r, s) is in the tile of the point whose block indices are (r / 1024, s / 2048). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := tile_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_tile]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The result array after the run is `sqdist` of the two argument arrays. -/
theorem final (c : Dev nD) :
    (dats m 0 c).arrAt 2 cfg0.N
      = sqdist (m ((c : Thread nD τ).loc main_arg0)) (m ((c : Thread nD τ).loc main_arg1)) :=
  (dats m 0 c).arrAt_eq_of_cover 2 (sqdist (V m c main_arg0) (V m c main_arg1)) (fun t _ => flushed_eq m c t) covered

/-- The kernel's run, read: the result at `sqdist` of the arguments, the arguments unchanged. -/
theorem run : θ_run defs (onTc (τ := τ) (main (F := Ideal))) ⟨m, fun _ => 0, ρ⟩ fun r => ∀ c : Dev nD,
      r.2.mem ((c : Thread nD τ).loc main_v0)
          = sqdist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.WholeSqDist

end
-- ==== Proof.lean ====
/-
  The kernel computes the matrix of squared Euclidean distances between the rows of two 8192 × 512 matrices, tile by
  tile, through ‖s_i − t_j‖² = ‖s_i‖² + ‖t_j‖² − 2 ⟨s_i, t_j⟩; the reference computes the same expansion on the whole
  matrices. Over the extended reals both are one function, `sqdist` (Proof/PairwiseSq.lean):
    entry (i, j) = (Σₖ s(i,k)² + Σₖ t(j,k)²) − 2 · Σₖ s(i,k) · t(j,k),
  with the same grouping and the same literal 2 on both sides, the kernel's narrowing of the product's operands being no
  change of value there. Nothing is regrouped, so the entries need not be finite and the precondition is never opened.

  * Proof/RefIsSqDist.lean — the reference's last stage, read at an entry, is `sqdist`.
  * Proof/TileSqDist.lean — one grid step's stored tile, read at an entry, is the formula on the two loaded tiles.
  * Proof/WholeSqDist.lean — the tiles are tiles of `sqdist` and fill the result, so the kernel's run ends at `sqdist`.

  The three frames are the programs' runs with the value forgotten; the kernel's idealization rewrote no operation, so
  there is nothing to preserve; and the two idealized runs, from memories that agree on the arguments, both end at
  `sqdist` of those arguments.
-/
import proofs.«125089_j20959440404484_1_alg».proof.Defs
import proofs.«125089_j20959440404484_1_alg».proof.Proof.Gen.Kernel
import proofs.«125089_j20959440404484_1_alg».proof.Proof.Gen.Kernel.Skeleton
import proofs.«125089_j20959440404484_1_alg».proof.Proof.Gen.Kernel.Launch
import proofs.«125089_j20959440404484_1_alg».proof.Proof.Gen.Kernel.Points
import proofs.«125089_j20959440404484_1_alg».proof.Proof.Gen.Kernel.Frame
import proofs.«125089_j20959440404484_1_alg».proof.Proof.Gen.KernelIdeal
import proofs.«125089_j20959440404484_1_alg».proof.Proof.Gen.KernelIdeal.Skeleton
import proofs.«125089_j20959440404484_1_alg».proof.Proof.Gen.KernelIdeal.Launch
import proofs.«125089_j20959440404484_1_alg».proof.Proof.Gen.KernelIdeal.Points
import proofs.«125089_j20959440404484_1_alg».proof.Proof.Gen.KernelIdeal.Frame
import proofs.«125089_j20959440404484_1_alg».proof.Proof.Gen.ReferenceIdeal
import proofs.«125089_j20959440404484_1_alg».proof.Proof.Gen.Pre_finite_inputs
import proofs.«125089_j20959440404484_1_alg».proof.Proof.Gen.KernelIdeal.Value
import proofs.«125089_j20959440404484_1_alg».proof.Proof.Gen.ReferenceIdeal.Run
import proofs.«125089_j20959440404484_1_alg».proof.Proof.Gen.ReferenceIdeal.Read
import proofs.«125089_j20959440404484_1_alg».proof.Proof.PairwiseSq
import proofs.«125089_j20959440404484_1_alg».proof.Proof.RefIsSqDist
import proofs.«125089_j20959440404484_1_alg».proof.Proof.WholeSqDist
import Idealize.ShloMosaic.Adequacy
import Idealize.ShloMosaic.Init

noncomputable section

namespace Cert.Proof

open Idealize.ShloMosaic Idealize.ShloMosaic.TcCoe Idealize.SL.Sem

/-- The word-level kernel runs to the end and leaves its two arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories agreeing on the two matrices, the kernel's result array and the reference's result both end at
    `sqdist` of those matrices, and the matrices are unchanged. -/
theorem algebraic : Cert.algebraic_KernelIdeal_ReferenceIdeal := by
  intro m ρ m' ρ' _ hagree
  refine ⟨fun c => Cert.PairwiseSq.sqdist
      (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.WholeSqDist.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.AsSqDist.last_stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
